-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S20000x256 : Shape := ⟨2, ![20000, 256]⟩
abbrev S300000x1 : Shape := ⟨2, ![300000, 1]⟩
abbrev S256x256 : Shape := ⟨2, ![256, 256]⟩
abbrev S256 : Shape := ⟨1, ![256]⟩
abbrev S300000 : Shape := ⟨1, ![300000]⟩
abbrev S4096 : Shape := ⟨1, ![4096]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S300000x1 : S_.BroadcastsInDim S300000x1 (![] : Fin 0 → Fin S300000x1.rank)
  reducesTo_S300000x1_S_d0_1 : S300000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S300000x1 1) : IVec S_ 1 :=
  let main_c_5 : IVec S_ 1 := constantI S_ 1 1#1
  let main_v17 : IVec S_ 1 := (fun x v => Host.reduce IntOp.andi x v reducesTo_S300000x1_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : FVec F S20000x256 .f32) (main_arg2 : FVec F S300000x1 .f32) (main_arg3 : FVec F S300000x1 .f32) (main_arg4 : FVec F S256x256 .f32) (main_arg5 : FVec F S256 .f32) (main_arg6 : IVec S300000 32) (main_arg7 : IVec S300000 32) (main_arg8 : IVec S300000 32) (main_arg9 : IVec S300000 32) (main_arg10 : IVec S4096 32) (main_arg11 : IVec S4096 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S300000x1 .f32 := Host.absf main_arg2
  let main_cst_2 : FVec F S_ .f32 := constant S_ .f32 0x7F800000#32
  let main_v10 : FVec F S300000x1 .f32 := broadcastInDim S300000x1 ![] bcast_S_S300000x1 main_cst_2
  let main_v11 : IVec S300000x1 1 := cmpf .olt main_v9 main_v10
  let main_c_3 : IVec S_ 1 := constantI S_ 1 1#1
  let main_v12 : IVec S_ 1 := (fun x v => Host.reduce IntOp.andi x v reducesTo_S300000x1_S_d0_1 h_S_) main_v11 main_c_3
  let main_v13 : IVec S_ 1 := andi main_v8 main_v12
  let main_v14 : FVec F S300000x1 .f32 := Host.absf main_arg3
  let main_cst_4 : FVec F S_ .f32 := constant S_ .f32 0x7F800000#32
  let main_v15 : FVec F S300000x1 .f32 := broadcastInDim S300000x1 ![] bcast_S_S300000x1 main_cst_4
  let main_v16 : IVec S300000x1 1 := cmpf .olt main_v14 main_v15
  fn_part1 (F := F) main_arg4 main_arg5 main_v13 main_v16
-- ==== Kernel.lean ====
abbrev S100000x256 : Shape := ⟨2, ![100000, 256]⟩
abbrev S20000x256 : Shape := ⟨2, ![20000, 256]⟩
abbrev S300000x1 : Shape := ⟨2, ![300000, 1]⟩
abbrev S256x256 : Shape := ⟨2, ![256, 256]⟩
abbrev S256 : Shape := ⟨1, ![256]⟩
abbrev S300000 : Shape := ⟨1, ![300000]⟩
abbrev S4096 : Shape := ⟨1, ![4096]⟩
abbrev S_ : Shape := ⟨0, ![]⟩
abbrev S300000x256 : Shape := ⟨2, ![300000, 256]⟩
abbrev S1x256 : Shape := ⟨2, ![1, 256]⟩
abbrev S2000x256 : Shape := ⟨2, ![2000, 256]⟩
abbrev S4096x1 : Shape := ⟨2, ![4096, 1]⟩
abbrev S4096x256 : Shape := ⟨2, ![4096, 256]⟩

abbrev nBuf : Space → Nat
  | .hbm => 64
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S20000x256, .f32⟩
  | .hbm, ⟨2, _⟩ => ⟨S300000x1, .f32⟩
  | .hbm, ⟨3, _⟩ => ⟨S300000x1, .f32⟩
  | .hbm, ⟨4, _⟩ => ⟨S256x256, .f32⟩
  | .hbm, ⟨5, _⟩ => ⟨S256, .f32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S300000, .i32⟩
  | .hbm, ⟨14, _⟩ => ⟨S300000, .i1⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S300000, .i32⟩
  | .hbm, ⟨19, _⟩ => ⟨S300000x1, .i32⟩
  | .hbm, ⟨20, _⟩ => ⟨S300000x256, .f32⟩
  | .hbm, ⟨21, _⟩ => ⟨S300000x256, .f32⟩
  | .hbm, ⟨22, _⟩ => ⟨S300000x256, .f32⟩
  | .hbm, ⟨23, _⟩ => ⟨S_, .f32⟩
  | .hbm, ⟨24, _⟩ => ⟨S100000x256, .f32⟩
  | .hbm, ⟨25, _⟩ => ⟨S300000x1, .i32⟩
  | .hbm, ⟨26, _⟩ => ⟨S100000x256, .f32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x256, .f32⟩
  | .hbm, ⟨36, _⟩ => ⟨S300000x256, .f32⟩
  | .hbm, ⟨37, _⟩ => ⟨S300000x256, .f32⟩
  | .hbm, ⟨38, _⟩ => ⟨S_, .f32⟩
  | .hbm, ⟨39, _⟩ => ⟨S20000x256, .f32⟩
  | .hbm, ⟨40, _⟩ => ⟨S300000x1, .i32⟩
  | .hbm, ⟨41, _⟩ => ⟨S20000x256, .f32⟩
  | .hbm, ⟨42, _⟩ => ⟨S256x256, .f32⟩
  | .hbm, ⟨43, _⟩ => ⟨S1x256, .f32⟩
  | .hbm, ⟨44, _⟩ => ⟨S100000x256, .f32⟩
  | .hbm, ⟨45, _⟩ => ⟨S20000x256, .f32⟩
  | .hbm, ⟨46, _⟩ => ⟨S_, .i32⟩
  | .hbm, ⟨47, _⟩ => ⟨S4096, .i32⟩
  | .hbm, ⟨48, _⟩ => ⟨S4096, .i1⟩
  | .hbm, ⟨49, _⟩ => ⟨S_, .i32⟩
  | .hbm, ⟨50, _⟩ => ⟨S4096, .i32⟩
  | .hbm, ⟨51, _⟩ => ⟨S4096, .i32⟩
  | .hbm, ⟨52, _⟩ => ⟨S4096, .i32⟩
  | .hbm, ⟨53, _⟩ => ⟨S4096x1, .i32⟩
  | .hbm, ⟨54, _⟩ => ⟨S4096x256, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S4096x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S_S20000x256 : S_.BroadcastsInDim S20000x256 (![] : Fin 0 → Fin S20000x256.rank)
  transposes_S256x256_S256x256_1_0 : S256x256.Transposes [1, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S4096 : S_.BroadcastsInDim S4096 (![] : Fin 0 → Fin S4096.rank)
  bcast_S4096_S4096x1_0 : S4096.BroadcastsInDim S4096x1 (![0] : Fin 1 → Fin S4096x1.rank)
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  dot_S2000x256_S256x256_S2000x256_1_0_0_1_n_n_wf : DotDims.WF S2000x256 S256x256 S2000x256 [1] [0] [0] [1] [] []
  gather_S20000x256_S4096x1_S4096x256_1_0_n_n_0_1_1256_wf : GatherDims.WF S20000x256 S4096x1 S4096x256 [1] [0] [] [0] [] 1 ![1, 256]
  gather_S100000x256_S4096x1_S4096x256_1_0_n_n_0_1_1256_wf : GatherDims.WF S100000x256 S4096x1 S4096x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S100000x256.size a
  hwx0_4 : ∀ i : grid0.Coords, EltTy.bits .f32 = 32 ∨ (Rect.block (s := S100000x256) S2000x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S20000x256.size a
  hwx1_4 : ∀ i : grid1.Coords, EltTy.bits .f32 = 32 ∨ (Rect.block (s := S20000x256) S2000x256.size (cc1_transform_4 i) (hinb1_4 i)).WholeWords (EltTy.packing .f32)

variable [Facts₀]

def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S20000x256 : Shape := ⟨2, ![20000, 256]⟩
abbrev S300000x1 : Shape := ⟨2, ![300000, 1]⟩
abbrev S256x256 : Shape := ⟨2, ![256, 256]⟩
abbrev S256 : Shape := ⟨1, ![256]⟩
abbrev S300000 : Shape := ⟨1, ![300000]⟩
abbrev S4096 : Shape := ⟨1, ![4096]⟩
abbrev S_ : Shape := ⟨0, ![]⟩
abbrev S300000x256 : Shape := ⟨2, ![300000, 256]⟩
abbrev S1x256 : Shape := ⟨2, ![1, 256]⟩
abbrev S4096x1 : Shape := ⟨2, ![4096, 1]⟩
abbrev S4096x256 : Shape := ⟨2, ![4096, 256]⟩

abbrev nBuf : Space → Nat
  | .hbm => 114
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S20000x256, .f32⟩
  | .hbm, ⟨2, _⟩ => ⟨S300000x1, .f32⟩
  | .hbm, ⟨3, _⟩ => ⟨S300000x1, .f32⟩
  | .hbm, ⟨4, _⟩ => ⟨S256x256, .f32⟩
  | .hbm, ⟨5, _⟩ => ⟨S256, .f32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S300000, .i32⟩
  | .hbm, ⟨14, _⟩ => ⟨S300000, .i1⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S300000, .i32⟩
  | .hbm, ⟨19, _⟩ => ⟨S300000x1, .i32⟩
  | .hbm, ⟨20, _⟩ => ⟨S300000x256, .f32⟩
  | .hbm, ⟨21, _⟩ => ⟨S300000x256, .f32⟩
  | .hbm, ⟨22, _⟩ => ⟨S300000x256, .f32⟩
  | .hbm, ⟨23, _⟩ => ⟨S_, .f32⟩
  | .hbm, ⟨24, _⟩ => ⟨S100000x256, .f32⟩
  | .hbm, ⟨25, _⟩ => ⟨S300000x1, .i32⟩
  | .hbm, ⟨26, _⟩ => ⟨S100000x256, .f32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x256, .f32⟩
  | .hbm, ⟨36, _⟩ => ⟨S300000x256, .f32⟩
  | .hbm, ⟨37, _⟩ => ⟨S300000x256, .f32⟩
  | .hbm, ⟨38, _⟩ => ⟨S_, .f32⟩
  | .hbm, ⟨39, _⟩ => ⟨S20000x256, .f32⟩
  | .hbm, ⟨40, _⟩ => ⟨S300000x1, .i32⟩
  | .hbm, ⟨41, _⟩ => ⟨S20000x256, .f32⟩
  | .hbm, ⟨42, _⟩ => ⟨S100000x256, .f32⟩
  | .hbm, ⟨43, _⟩ => ⟨S256x256, .f32⟩
  | .hbm, ⟨44, _⟩ => ⟨S100000x256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .i1⟩
  | .hbm, ⟨51, _⟩ => ⟨S_, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S100000x256, .f32⟩
  | .hbm, ⟨56, _⟩ => ⟨S256x256, .f32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S100000x256, .f32⟩
  | .hbm, ⟨63, _⟩ => ⟨S100000x256, .i1⟩
  | .hbm, ⟨64, _⟩ => ⟨S_, .f32⟩
  | .hbm, ⟨65, _⟩ => ⟨S100000x256, .f32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S20000x256, .f32⟩
  | .hbm, ⟨70, _⟩ => ⟨S256x256, .f32⟩
  | .hbm, ⟨71, _⟩ => ⟨S20000x256, .f32⟩
  | .hbm, ⟨72, _⟩ => ⟨S1x256, .f32⟩
  | .hbm, ⟨73, _⟩ => ⟨S20000x256, .f32⟩
  | .hbm, ⟨74, _⟩ => ⟨S20000x256, .f32⟩
  | .hbm, ⟨75, _⟩ => ⟨S_, .f32⟩
  | .hbm, ⟨76, _⟩ => ⟨S20000x256, .f32⟩
  | .hbm, ⟨77, _⟩ => ⟨S20000x256, .i1⟩
  | .hbm, ⟨78, _⟩ => ⟨S_, .f32⟩
  | .hbm, ⟨79, _⟩ => ⟨S20000x256, .f32⟩
  | .hbm, ⟨80, _⟩ => ⟨S20000x256, .f32⟩
  | .hbm, ⟨81, _⟩ => ⟨S20000x256, .f32⟩
  | .hbm, ⟨82, _⟩ => ⟨S20000x256, .f32⟩
  | .hbm, ⟨83, _⟩ => ⟨S256x256, .f32⟩
  | .hbm, ⟨84, _⟩ => ⟨S20000x256, .f32⟩
  | .hbm, ⟨85, _⟩ => ⟨S1x256, .f32⟩
  | .hbm, ⟨86, _⟩ => ⟨S20000x256, .f32⟩
  | .hbm, ⟨87, _⟩ => ⟨S20000x256, .f32⟩
  | .hbm, ⟨88, _⟩ => ⟨S_, .f32⟩
  | .hbm, ⟨89, _⟩ => ⟨S20000x256, .f32⟩
  | .hbm, ⟨90, _⟩ => ⟨S20000x256, .i1⟩
  | .hbm, ⟨91, _⟩ => ⟨S_, .f32⟩
  | .hbm, ⟨92, _⟩ => ⟨S20000x256, .f32⟩
  | .hbm, ⟨93, _⟩ => ⟨S20000x256, .f32⟩
  | .hbm, ⟨94, _⟩ => ⟨S20000x256, .f32⟩
  | .hbm, ⟨95, _⟩ => ⟨S20000x256, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S4096, .i32⟩
  | .hbm, ⟨103, _⟩ => ⟨S4096x1, .i32⟩
  | .hbm, ⟨104, _⟩ => ⟨S4096x256, .f32⟩
  | .hbm, ⟨105, _⟩ => ⟨S_, .i32⟩
  | .hbm, ⟨106, _⟩ => ⟨S4096, .i32⟩
  | .hbm, ⟨107, _⟩ => ⟨S4096, .i1⟩
  | .hbm, ⟨108, _⟩ => ⟨S_, .i32⟩
  | .hbm, ⟨109, _⟩ => ⟨S4096, .i32⟩
  | .hbm, ⟨110, _⟩ => ⟨S4096, .i32⟩
  | .hbm, ⟨111, _⟩ => ⟨S4096, .i32⟩
  | .hbm, ⟨112, _⟩ => ⟨S4096x1, .i32⟩
  | .hbm, ⟨113, _⟩ => ⟨S4096x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S_S20000x256 : S_.BroadcastsInDim S20000x256 (![] : Fin 0 → Fin S20000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1x256_S20000x256_0_1 : S1x256.BroadcastsInDim S20000x256 (![0, 1] : Fin 2 → Fin S20000x256.rank)
  bcast_S_S4096 : S_.BroadcastsInDim S4096 (![] : Fin 0 → Fin S4096.rank)
  bcast_S4096_S4096x1_0 : S4096.BroadcastsInDim S4096x1 (![0] : Fin 1 → Fin S4096x1.rank)
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  dot_S100000x256_S256x256_S100000x256_1_0_0_1_n_n_wf : DotDims.WF S100000x256 S256x256 S100000x256 [1] [0] [0] [1] [] []
  dot_S20000x256_S256x256_S20000x256_1_0_0_1_n_n_wf : DotDims.WF S20000x256 S256x256 S20000x256 [1] [0] [0] [1] [] []
  gather_S20000x256_S4096x1_S4096x256_1_0_n_n_0_1_1256_wf : GatherDims.WF S20000x256 S4096x1 S4096x256 [1] [0] [] [0] [] 1 ![1, 256]
  gather_S100000x256_S4096x1_S4096x256_1_0_n_n_0_1_1256_wf : GatherDims.WF S100000x256 S4096x1 S4096x256 [1] [0] [] [0] [] 1 ![1, 256]

variable [Facts₀]

def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf

class Facts : Prop extends Facts₀ where

variable [Facts]
-- ==== Proof.Spec.lean ====
/-
  The dense stage both programs compute, as a function of ONE ROW.

  For a node with feature row `v` and aggregated neighbour row `nh` (both of length 256), a weight matrix given already
  transposed, `wt k j = W1[j, k]`, and a bias `b`, the output entry in column `j` is

      leaky (Σ_k (v k + nh k) · wt k j + b j)  +  leaky (Σ_k (v k · nh k) · wt k j + b j),

  where `leaky x = x` if `x ≥ 0` and `0.01f · x` otherwise (the literal is the f32 word both programs print).
  Everything is over the extended reals; no law beyond reading the operations at an index is used, so the sums are
  never re-ordered and no finiteness is needed.
-/
import Idealize.ShloMosaic.PureOps.Ideal
import Idealize.ShloMosaic.PureOps.Ideal.Laws
import Idealize.ShloMosaic.Lib.ValueIdx

noncomputable section

namespace Cert.Combine

open Idealize.ShloMosaic Idealize.ShloMosaic.ValueIdx

/-- The leaky rectifier exactly as printed: compare with the zero word, keep `x` or scale it by the f32 word of 0.01. -/
def leaky (x : Ideal .f32) : Ideal .f32 :=
  Scalar.select (FloatOps.cmpf (F := Ideal) .oge x (FloatOps.ofBits (F := Ideal) .f32 0x00000000#32)) x
    (FloatOps.mulf (F := Ideal) (FloatOps.ofBits (F := Ideal) .f32 0x3C23D70A#32) x)

/-- One affine image of a row: the row times the transposed weights, plus the bias, in column `j`. -/
def lin (x : Fin 256 → Ideal .f32) (wt : Fin 256 → Fin 256 → Ideal .f32) (b : Fin 256 → Ideal .f32) (j : Fin 256) : Ideal .f32 :=
  (∑ k : Fin 256, x k * wt k j) + b j

/-- The output row entry: the rectified affine image of the SUM row plus that of the PRODUCT row. -/
def rowOut (v nh : Fin 256 → Ideal .f32) (wt : Fin 256 → Fin 256 → Ideal .f32) (b : Fin 256 → Ideal .f32) (j : Fin 256) : Ideal .f32 :=
  leaky (lin (fun k => v k + nh k) wt b j) + leaky (lin (fun k => v k * nh k) wt b j)

/-- The dense stage on the 100000-row node set, index by index. -/
def combineGrid (v nh : (⟨2, ![100000, 256]⟩ : Shape).Idx → Ideal .f32) (wt : (⟨2, ![256, 256]⟩ : Shape).Idx → Ideal .f32)
    (b : Fin 256 → Ideal .f32) : (⟨2, ![100000, 256]⟩ : Shape).Idx → Ideal .f32 :=
  fun i => rowOut (fun k => v (ix2 (i 0) k)) (fun k => nh (ix2 (i 0) k)) (fun k j => wt (ix2 k j)) b (i 1)

/-- The dense stage on the 20000-row node set, index by index. -/
def combineSc (v nh : (⟨2, ![20000, 256]⟩ : Shape).Idx → Ideal .f32) (wt : (⟨2, ![256, 256]⟩ : Shape).Idx → Ideal .f32)
    (b : Fin 256 → Ideal .f32) : (⟨2, ![20000, 256]⟩ : Shape).Idx → Ideal .f32 :=
  fun i => rowOut (fun k => v (ix2 (i 0) k)) (fun k => nh (ix2 (i 0) k)) (fun k j => wt (ix2 k j)) b (i 1)

end Cert.Combine

end
-- ==== Proof.BodyValue.lean ====
/-
  The kernel body's stored value at one entry of its 2000×256 block.

  With `v`, `nh` the two loaded row blocks, `wt` the loaded 256×256 weight block (already transposed) and `b` the loaded
  1×256 bias block, entry `(p, q)` of what the body stores is the row function `rowOut` of row `p` of `v` and of `nh`:
  the two matrix products into a zero accumulator are plain sums over the contracted axis, the changes of float format
  are the identity on the extended reals, the bias row is read at column `q` whatever the row, and the rectifier is the
  compare-and-select the specification spells. Both launches of the kernel print the same body, so one statement
  serves both.
-/
import proofs.«141444_j57878979281442_1_alg».proof.Proof.Gen.KernelIdeal.Skeleton
import proofs.«141444_j57878979281442_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.BodyValue

open Cert.KernelIdeal Cert.KernelIdeal.Gen Cert.Combine Idealize.ShloMosaic Idealize.ShloMosaic.ValueIdx

/-! ## The product's operand indices: row `(i 0)` of the left operand against column `(i 1)` of the right -/

theorem lhs_axis0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_axis1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_axis0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_axis1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block product into a zero accumulator, at entry `(p, q)`: the sum over `k` of row `p` of the left operand
    times column `q` of the right. -/
theorem matmul_zero_at (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) := by
  refine (Ideal.matmul_constant_zero_apply dot_S2000x256_S256x256_S2000x256_1_0_0_1_n_n none l r (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The stored value at an entry -/

/-- The affine part at entry `(p, q)`: the product with the weight block plus the bias row at `q` (a change of float
    format is the identity on the extended reals, so the row `x` enters as it is). -/
theorem lin_at (x : FVec Ideal S2000x256 .f32) (v5 : Vec Ideal S256x256 .f32) (v8 : Vec Ideal S1x256 .f32)
    (p : Fin 2000) (q : Fin 256) :
    addf (matmul dot_S2000x256_S256x256_S2000x256_1_0_0_1_n_n none (truncf .bf16 x bitsLt_bf16_f32) (truncf .bf16 v5 bitsLt_bf16_f32)
            (constant (F := Ideal) S2000x256 .f32 0x00000000#32))
         (broadcastTo S2000x256 v8 broadcasts_S1x256_S2000x256) (ix2 p q)
      = lin (fun k => x (ix2 p k)) (fun k j => v5 (ix2 k j)) (fun j => v8 (ix2 (0 : Fin 1) j)) q := by
  rw [addf_apply, matmul_zero_at, broadcastTo_1b_ab_apply]
  rfl

/-- The rectifier at an entry: compare with the zero word, keep or scale. -/
theorem leaky_at (L : FVec Ideal S2000x256 .f32) (i : S2000x256.Idx) :
    select (cmpf .oge L (broadcast S2000x256 (FloatOps.ofBits (F := Ideal) .f32 0x00000000#32))) L
        (mulf (broadcast S2000x256 (FloatOps.ofBits (F := Ideal) .f32 0x3C23D70A#32)) L) i
      = leaky (L i) := rfl

/-- Entry `(p, q)` of the body's stored block is the row function of row `p` of the two row blocks, the weight block
    read at `(k, q)` and the bias block's one row read at `q`. -/
theorem pay_at (v0 v1 : Vec Ideal S2000x256 .f32) (v5 : Vec Ideal S256x256 .f32) (v8 : Vec Ideal S1x256 .f32)
    (p : Fin 2000) (q : Fin 256) :
    k0_pay1 (F := Ideal) v0 v1 v5 v8 (ix2 p q)
      = rowOut (fun k => v0 (ix2 p k)) (fun k => v1 (ix2 p k)) (fun k j => v5 (ix2 k j)) (fun j => v8 (ix2 (0 : Fin 1) j)) q := by
  unfold k0_pay1
  simp only [shapeCast_self]
  rw [addf_apply, leaky_at, leaky_at, lin_at, lin_at]
  rfl

/-- The second launch prints the same body: its stored value is the first's. -/
theorem pay1_eq (v0 v1 : Vec Ideal S2000x256 .f32) (v5 : Vec Ideal S256x256 .f32) (v8 : Vec Ideal S1x256 .f32) :
    k1_pay1 (F := Ideal) v0 v1 v5 v8 = k0_pay1 (F := Ideal) v0 v1 v5 v8 := rfl

end Cert.KernelIdeal.BodyValue

end
-- ==== Proof.KernelArrays.lean ====
/-
  From blocks to arrays: what each launch leaves in its output array.

  Each launch walks its row blocks of 2000 rows in order; point `t` reads rows `2000 t … 2000 t + 1999` of the feature
  array and of the aggregated array, the whole weight array and the whole bias row, and writes the same rows of the
  output. The stored block is the row function of the loaded rows (the body's value at an entry), so what point `t`
  writes back is block `t` of ONE whole-array function, `combineGrid` / `combineSc` of the arrays as the launch finds
  them; the blocks tile the output, so the output array ends equal to that function.
-/
import proofs.«141444_j57878979281442_1_alg».proof.Proof.Gen.KernelIdeal.Frame
import proofs.«141444_j57878979281442_1_alg».proof.Proof.BodyValue
import Idealize.ShloMosaic.Lib.Pipeline.Value

set_option maxRecDepth 16384

noncomputable section

namespace Cert.KernelIdeal.Arrays

open Cert.KernelIdeal Cert.KernelIdeal.Gen Cert.KernelIdeal.BodyValue Cert.Combine
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first launch: 50 points over the 100000-row node set -/

/-- The printed index maps over the grid: the two row windows and the output move to block `t`, the weight and the
    bias stay at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the dense stage of the arrays as the launch finds them. -/
theorem flushed0 (c : Dev nD) (t : Fin cfg0.N) :
    (dat0 (F := Ideal) V c).flushed 4 t
      = ((cfg0.win 4).blk t).view.read (Elt Ideal)
          (combineGrid (V c main_arg0) (V c main_v11) (V c main_v24) (fun j => V c main_v25 (ix2 (0 : Fin 1) j))) := by
  show (cfg0.win 4).cut (grid0.coords t) ((dat0 V c).after 4 t) = _
  rw [after0_4]
  unfold out0_4
  rw [View.canon_unit_zero hz]
  simp only [View.ld_unit_zero (S := S2000x256) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  refine (pay_at (iblk0 V c 0 t) (iblk0 V c 1 t) (iblk0 V c 2 t) (iblk0 V c 3 t) p q).trans ?_
  obtain ⟨e00, e01, e10, e11, e20, e21, e30, e31, e40, e41⟩ := idx0 t
  show rowOut (fun k => V c main_arg0 (((cfg0.win 0).blk t).view.emb (ix2 p k)))
        (fun k => V c main_v11 (((cfg0.win 1).blk t).view.emb (ix2 p k)))
        (fun k j => V c main_v24 (((cfg0.win 2).blk t).view.emb (ix2 k j)))
        (fun j => V c main_v25 (((cfg0.win 3).blk t).view.emb (ix2 (0 : Fin 1) j))) q
      = rowOut (fun k => V c main_arg0 (ix2 ((((cfg0.win 4).blk t).view.emb (ix2 p q)) 0) k))
        (fun k => V c main_v11 (ix2 ((((cfg0.win 4).blk t).view.emb (ix2 p q)) 0) k))
        (fun k j => V c main_v24 (ix2 k j))
        (fun j => V c main_v25 (ix2 (0 : Fin 1) j)) ((((cfg0.win 4).blk t).view.emb (ix2 p q)) 1)
  have h0 : ∀ k : Fin 256, ((cfg0.win 0).blk t).view.emb (ix2 p k) = ix2 ((((cfg0.win 4).blk t).view.emb (ix2 p q)) 0) k := fun k => by
    funext a; apply Fin.ext
    match a with
    | ⟨0, _⟩ => show win0_0.index t (0 : Fin 2) * 2000 + 1 * p.val = win0_4.index t (0 : Fin 2) * 2000 + 1 * p.val; omega
    | ⟨1, _⟩ => show win0_0.index t (1 : Fin 2) * 256 + 1 * k.val = k.val; omega
  have h1 : ∀ k : Fin 256, ((cfg0.win 1).blk t).view.emb (ix2 p k) = ix2 ((((cfg0.win 4).blk t).view.emb (ix2 p q)) 0) k := fun k => by
    funext a; apply Fin.ext
    match a with
    | ⟨0, _⟩ => show win0_1.index t (0 : Fin 2) * 2000 + 1 * p.val = win0_4.index t (0 : Fin 2) * 2000 + 1 * p.val; omega
    | ⟨1, _⟩ => show win0_1.index t (1 : Fin 2) * 256 + 1 * k.val = k.val; omega
  have h2 : ∀ (k j : Fin 256), ((cfg0.win 2).blk t).view.emb (ix2 k j) = ix2 k j := fun k j => by
    funext a; apply Fin.ext
    match a with
    | ⟨0, _⟩ => show win0_2.index t (0 : Fin 2) * 256 + 1 * k.val = k.val; omega
    | ⟨1, _⟩ => show win0_2.index t (1 : Fin 2) * 256 + 1 * j.val = j.val; omega
  have h3 : ∀ j : Fin 256, ((cfg0.win 3).blk t).view.emb (ix2 (0 : Fin 1) j) = ix2 (0 : Fin 1) j := fun j => by
    funext a; apply Fin.ext
    match a with
    | ⟨0, _⟩ => show win0_3.index t (0 : Fin 2) * 1 + 1 * 0 = 0; omega
    | ⟨1, _⟩ => show win0_3.index t (1 : Fin 2) * 256 + 1 * j.val = j.val; omega
  have h4 : (((cfg0.win 4).blk t).view.emb (ix2 p q)) 1 = q := by
    apply Fin.ext
    show win0_4.index t (1 : Fin 2) * 256 + 1 * q.val = q.val; omega
  simp only [h0, h1, h2, h3, h4]
  rfl

/-- An index of the output array is in point `t`'s block iff each coordinate is in the block's range on its axis. -/
theorem mem_blk0 (t : Fin cfg0.N) (i : S100000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v26).slice (win0_4.rect t)).set ↔ _
  rw [View.set_slice_whole, Rect.mem_set_unit]
  exact Iff.rfl

/-- The blocks tile the output: row `r` lies in the block of point `r / 2000`. -/
theorem cover0 (i : S100000x256.Idx) :
    ∃ t : Fin cfg0.N, (cfg0.win 4).flush t = true ∧ i ∈ ((cfg0.win 4).blk t).view.set := by
  have hi0 : (i 0).val < 100000 := (i 0).isLt
  have hi1 : (i 1).val < 256 := (i 1).isLt
  have hlt : (i 0).val / 2000 < 50 := by omega
  obtain ⟨t, ht⟩ : ∃ t : Fin cfg0.N, t.val = (i 0).val / 2000 := ⟨⟨(i 0).val / 2000, hlt⟩, rfl⟩
  obtain ⟨-, -, -, -, -, -, -, -, e40, e41⟩ := idx0 t
  refine ⟨t, flush0_4 t, ?_⟩
  rw [mem_blk0]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- The first launch's output array after its last point: the dense stage of the arrays as the launch finds them. -/
theorem final0 (c : Dev nD) :
    (dat0 (F := Ideal) V c).arrAt 4 cfg0.N
      = combineGrid (V c main_arg0) (V c main_v11) (V c main_v24) (fun j => V c main_v25 (ix2 (0 : Fin 1) j)) :=
  (dat0 V c).arrAt_eq_of_cover 4 _ (fun t _ => flushed0 V c t) cover0

/-! ## The second launch: 10 points over the 20000-row node set -/

/-- The printed index maps over the grid: the two row windows and the output move to block `t`, the weight and the
    bias stay at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the dense stage of the arrays as the launch finds them. -/
theorem flushed1 (c : Dev nD) (t : Fin cfg1.N) :
    (dat1 (F := Ideal) V c).flushed 4 t
      = ((cfg1.win 4).blk t).view.read (Elt Ideal)
          (combineSc (V c main_arg1) (V c main_v23) (V c main_v24) (fun j => V c main_v25 (ix2 (0 : Fin 1) j))) := by
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz, View.ld_unit_zero (S := S1x256) hz]
  rw [pay1_eq]
  funext j
  obtain ⟨p, q, rfl⟩ : ∃ (p : Fin 2000) (q : Fin 256), j = ix2 p q := ⟨j 0, j 1, eq_ix2 j⟩
  refine (pay_at (iblk1 V c 0 t) (iblk1 V c 1 t) (iblk1 V c 2 t) (iblk1 V c 3 t) p q).trans ?_
  obtain ⟨e00, e01, e10, e11, e20, e21, e30, e31, e40, e41⟩ := idx1 t
  show rowOut (fun k => V c main_arg1 (((cfg1.win 0).blk t).view.emb (ix2 p k)))
        (fun k => V c main_v23 (((cfg1.win 1).blk t).view.emb (ix2 p k)))
        (fun k j => V c main_v24 (((cfg1.win 2).blk t).view.emb (ix2 k j)))
        (fun j => V c main_v25 (((cfg1.win 3).blk t).view.emb (ix2 (0 : Fin 1) j))) q
      = rowOut (fun k => V c main_arg1 (ix2 ((((cfg1.win 4).blk t).view.emb (ix2 p q)) 0) k))
        (fun k => V c main_v23 (ix2 ((((cfg1.win 4).blk t).view.emb (ix2 p q)) 0) k))
        (fun k j => V c main_v24 (ix2 k j))
        (fun j => V c main_v25 (ix2 (0 : Fin 1) j)) ((((cfg1.win 4).blk t).view.emb (ix2 p q)) 1)
  have h0 : ∀ k : Fin 256, ((cfg1.win 0).blk t).view.emb (ix2 p k) = ix2 ((((cfg1.win 4).blk t).view.emb (ix2 p q)) 0) k := fun k => by
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 256 + 1 * k.val = k.val; omega
  have h1 : ∀ k : Fin 256, ((cfg1.win 1).blk t).view.emb (ix2 p k) = ix2 ((((cfg1.win 4).blk t).view.emb (ix2 p q)) 0) k := fun k => by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 256 + 1 * k.val = k.val; omega
  have h2 : ∀ (k j : Fin 256), ((cfg1.win 2).blk t).view.emb (ix2 k j) = ix2 k j := fun k j => by
    funext a; apply Fin.ext
    match a with
    | ⟨0, _⟩ => show win1_2.index t (0 : Fin 2) * 256 + 1 * k.val = k.val; omega
    | ⟨1, _⟩ => show win1_2.index t (1 : Fin 2) * 256 + 1 * j.val = j.val; omega
  have h3 : ∀ j : Fin 256, ((cfg1.win 3).blk t).view.emb (ix2 (0 : Fin 1) j) = ix2 (0 : Fin 1) j := fun j => by
    funext a; apply Fin.ext
    match a with
    | ⟨0, _⟩ => show win1_3.index t (0 : Fin 2) * 1 + 1 * 0 = 0; omega
    | ⟨1, _⟩ => show win1_3.index t (1 : Fin 2) * 256 + 1 * j.val = j.val; omega
  have h4 : (((cfg1.win 4).blk t).view.emb (ix2 p q)) 1 = q := by
    apply Fin.ext
    show win1_4.index t (1 : Fin 2) * 256 + 1 * q.val = q.val; omega
  simp only [h0, h1, h2, h3, h4]
  rfl

/-- An index of the output array is in point `t`'s block iff each coordinate is in the block's range on its axis. -/
theorem mem_blk1 (t : Fin cfg1.N) (i : S20000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v27).slice (win1_4.rect t)).set ↔ _
  rw [View.set_slice_whole, Rect.mem_set_unit]
  exact Iff.rfl

/-- The blocks tile the output: row `r` lies in the block of point `r / 2000`. -/
theorem cover1 (i : S20000x256.Idx) :
    ∃ t : Fin cfg1.N, (cfg1.win 4).flush t = true ∧ i ∈ ((cfg1.win 4).blk t).view.set := by
  have hi0 : (i 0).val < 20000 := (i 0).isLt
  have hi1 : (i 1).val < 256 := (i 1).isLt
  have hlt : (i 0).val / 2000 < 10 := by omega
  obtain ⟨t, ht⟩ : ∃ t : Fin cfg1.N, t.val = (i 0).val / 2000 := ⟨⟨(i 0).val / 2000, hlt⟩, rfl⟩
  obtain ⟨-, -, -, -, -, -, -, -, e40, e41⟩ := idx1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- The second launch's output array after its last point: the dense stage of the arrays as the launch finds them. -/
theorem final1 (c : Dev nD) :
    (dat1 (F := Ideal) V c).arrAt 4 cfg1.N
      = combineSc (V c main_arg1) (V c main_v23) (V c main_v24) (fun j => V c main_v25 (ix2 (0 : Fin 1) j)) :=
  (dat1 V c).arrAt_eq_of_cover 4 _ (fun t _ => flushed1 V c t) cover1

end Cert.KernelIdeal.Arrays

end
-- ==== Proof.KernelHost.lean ====
/-
  The host side of the kernel program: what the buffers hold where the two launches read them, and what the two
  results are as functions of the arguments.

  Before the launches @main computes, by host operations, the two aggregated arrays (a gather of source rows scaled by
  the edge weights, scatter-added into zeros at the destination rows), the transposed weight matrix and the bias as a
  one-row matrix; after them it gathers 4096 rows of each launch's output at the query indices (negative indices
  wrapped by the node count first). Each of these is ONE function of the argument arrays, named here and never
  opened: the reference applies the very same operations, so the two programs meet on these names.
  Through the fold of @main's segments: the first launch finds the arguments as launched and the host-computed arrays;
  the second launch finds the same (the first writes only its own output); each launch's output array ends as the
  dense stage of what it found (the blocks-to-array lemmas); the host gathers then read those outputs.
-/
import proofs.«141444_j57878979281442_1_alg».proof.Proof.Gen.KernelIdeal.Frame
import proofs.«141444_j57878979281442_1_alg».proof.Proof.KernelArrays
import Idealize.ShloMosaic.Lib.StableHlo.Run
import Idealize.ShloMosaic.Lib.ValueLayout
import Idealize.ShloMosaic.PureOps.Ideal

set_option maxRecDepth 16384

noncomputable section

namespace Cert.KernelIdeal.HostSide

open Cert.KernelIdeal Cert.KernelIdeal.Gen Cert.KernelIdeal.Arrays Cert.Combine
open Idealize.ShloMosaic Idealize.ShloMosaic.TcCoe Idealize.ShloMosaic.ValueIdx Idealize.SL.Sem Idealize.ShloMosaic.StableHlo
open Idealize.ShloMosaic.Pipeline (Dat)

/-! ## The host chains, as functions of raw arrays -/

/-- Aggregation into the 100000-row node set: rows of `a1` gathered at the (wrapped) source indices `a6`, scaled by the
    edge weights `a2`, scatter-added into zeros at the destination indices `a7`. -/
def nhGrid (a1 : (⟨S20000x256, .f32⟩ : BufTy).Contents (Elt Ideal)) (a2 : (⟨S300000x1, .f32⟩ : BufTy).Contents (Elt Ideal))
    (a6 a7 : (⟨S300000, .i32⟩ : BufTy).Contents (Elt Ideal)) : (⟨S100000x256, .f32⟩ : BufTy).Contents (Elt Ideal) :=
  Host.scatterAdd scatter_S100000x256_S300000x1_S300000x256_1_0_0_1
    (broadcastInDim S100000x256 ![] bcast_S_S100000x256 (constant (F := Ideal) S_ .f32 0x00000000#32))
    (broadcastInDim S300000x1 ![0] bcast_S300000_S300000x1_0 a7)
    (mulf (Host.gather gather_S20000x256_S300000x1_S300000x256_1_0_n_n_0_1_1256 a1
        (broadcastInDim S300000x1 ![0] bcast_S300000_S300000x1_0
          (select (cmpi .slt a6 (broadcastInDim S300000 ![] bcast_S_S300000 (constantI S_ 32 0#32)))
            (addi a6 (broadcastInDim S300000 ![] bcast_S_S300000 (constantI S_ 32 20000#32))) a6)))
      (broadcastInDim S300000x256 ![0, 1] bcast_S300000x1_S300000x256_0_1 a2))

/-- Aggregation into the 20000-row node set: rows of `a0` gathered at the (wrapped) source indices `a8`, scaled by the
    edge weights `a3`, scatter-added into zeros at the destination indices `a9`. -/
def nhSc (a0 : (⟨S100000x256, .f32⟩ : BufTy).Contents (Elt Ideal)) (a3 : (⟨S300000x1, .f32⟩ : BufTy).Contents (Elt Ideal))
    (a8 a9 : (⟨S300000, .i32⟩ : BufTy).Contents (Elt Ideal)) : (⟨S20000x256, .f32⟩ : BufTy).Contents (Elt Ideal) :=
  Host.scatterAdd scatter_S20000x256_S300000x1_S300000x256_1_0_0_1
    (broadcastInDim S20000x256 ![] bcast_S_S20000x256 (constant (F := Ideal) S_ .f32 0x00000000#32))
    (broadcastInDim S300000x1 ![0] bcast_S300000_S300000x1_0 a9)
    (mulf (Host.gather gather_S100000x256_S300000x1_S300000x256_1_0_n_n_0_1_1256 a0
        (broadcastInDim S300000x1 ![0] bcast_S300000_S300000x1_0
          (select (cmpi .slt a8 (broadcastInDim S300000 ![] bcast_S_S300000 (constantI S_ 32 0#32)))
            (addi a8 (broadcastInDim S300000 ![] bcast_S_S300000 (constantI S_ 32 100000#32))) a8)))
      (broadcastInDim S300000x256 ![0, 1] bcast_S300000x1_S300000x256_0_1 a3))

/-- The weight matrix transposed. -/
def wT (a4 : (⟨S256x256, .f32⟩ : BufTy).Contents (Elt Ideal)) : (⟨S256x256, .f32⟩ : BufTy).Contents (Elt Ideal) :=
  transpose S256x256 [1, 0] a4 transposes_S256x256_S256x256_1_0

/-- The 4096 query rows of a 20000-row array, negative query indices wrapped by 20000 first. -/
def tailSc (X : (⟨S20000x256, .f32⟩ : BufTy).Contents (Elt Ideal)) (a10 : (⟨S4096, .i32⟩ : BufTy).Contents (Elt Ideal)) :
    (⟨S4096x256, .f32⟩ : BufTy).Contents (Elt Ideal) :=
  Host.gather gather_S20000x256_S4096x1_S4096x256_1_0_n_n_0_1_1256 X
    (broadcastInDim S4096x1 ![0] bcast_S4096_S4096x1_0
      (select (cmpi .slt a10 (broadcastInDim S4096 ![] bcast_S_S4096 (constantI S_ 32 0#32)))
        (addi a10 (broadcastInDim S4096 ![] bcast_S_S4096 (constantI S_ 32 20000#32))) a10))

/-- The 4096 query rows of a 100000-row array, negative query indices wrapped by 100000 first. -/
def tailGrid (X : (⟨S100000x256, .f32⟩ : BufTy).Contents (Elt Ideal)) (a11 : (⟨S4096, .i32⟩ : BufTy).Contents (Elt Ideal)) :
    (⟨S4096x256, .f32⟩ : BufTy).Contents (Elt Ideal) :=
  Host.gather gather_S100000x256_S4096x1_S4096x256_1_0_n_n_0_1_1256 X
    (broadcastInDim S4096x1 ![0] bcast_S4096_S4096x1_0
      (select (cmpi .slt a11 (broadcastInDim S4096 ![] bcast_S_S4096 (constantI S_ 32 0#32)))
        (addi a11 (broadcastInDim S4096 ![] bcast_S_S4096 (constantI S_ 32 100000#32))) a11))

variable (m : (ℓ : Loc nD τ sig) → Buf (Elt Ideal) ℓ) (ρ : Dev nD → PrngReg)

/-! ## Before the launches: the arguments as launched, the host-computed arrays at their functions -/

theorem W1_arg0 (c : Dev nD) : W1 m ρ c (Proc.devRef .tc main_arg0) = (m ((c.tc : Thread nD τ).loc main_arg0)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg1 (c : Dev nD) : W1 m ρ c (Proc.devRef .tc main_arg1) = (m ((c.tc : Thread nD τ).loc main_arg1)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg10 (c : Dev nD) : W1 m ρ c (Proc.devRef .tc main_arg10) = (m ((c.tc : Thread nD τ).loc main_arg10)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_arg11 (c : Dev nD) : W1 m ρ c (Proc.devRef .tc main_arg11) = (m ((c.tc : Thread nD τ).loc main_arg11)) :=
  StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W1_v11 (c : Dev nD) :
    W1 m ρ c (Proc.devRef .tc main_v11) = nhGrid (m ((c.tc : Thread nD τ).loc main_arg1)) (m ((c.tc : Thread nD τ).loc main_arg2)) (m ((c.tc : Thread nD τ).loc main_arg6)) (m ((c.tc : Thread nD τ).loc main_arg7)) := by
  show StableHlo.after hostOps0 (W0 m ρ c) (Proc.devRef .tc main_v11) = _
  simp only [hostOps0, List.flatten_cons, List.flatten_nil, List.append_nil, List.cons_append, List.nil_append]
  after_results_simp <;> rfl

theorem W1_v23 (c : Dev nD) :
    W1 m ρ c (Proc.devRef .tc main_v23) = nhSc (m ((c.tc : Thread nD τ).loc main_arg0)) (m ((c.tc : Thread nD τ).loc main_arg3)) (m ((c.tc : Thread nD τ).loc main_arg8)) (m ((c.tc : Thread nD τ).loc main_arg9)) := by
  show StableHlo.after hostOps0 (W0 m ρ c) (Proc.devRef .tc main_v23) = _
  simp only [hostOps0, List.flatten_cons, List.flatten_nil, List.append_nil, List.cons_append, List.nil_append]
  after_results_simp <;> rfl

theorem W1_v24 (c : Dev nD) : W1 m ρ c (Proc.devRef .tc main_v24) = wT (m ((c.tc : Thread nD τ).loc main_arg4)) := by
  show StableHlo.after hostOps0 (W0 m ρ c) (Proc.devRef .tc main_v24) = _
  simp only [hostOps0, List.flatten_cons, List.flatten_nil, List.append_nil, List.cons_append, List.nil_append]
  after_results
  rfl

/-- The bias as a one-row matrix, read in its one row at column `j`: entry `j` of the bias vector. -/
theorem W1_v25_at (c : Dev nD) (j : Fin 256) :
    W1 m ρ c (Proc.devRef .tc main_v25) (ix2 (0 : Fin 1) j) = (m ((c.tc : Thread nD τ).loc main_arg5)) (ix1 j) := by
  show StableHlo.after hostOps0 (W0 m ρ c) (Proc.devRef .tc main_v25) (ix2 (0 : Fin 1) j) = _
  simp only [hostOps0, List.flatten_cons, List.flatten_nil, List.append_nil, List.cons_append, List.nil_append]
  after_results
  exact shapeCast_a_1a_apply (m ((c.tc : Thread nD τ).loc main_arg5)) shapeCasts_S256_S1x256 (0 : Fin 1) j

/-! ## Across the first launch: its output array is the dense stage of the arguments -/

theorem out_grid (c : Dev nD) : W2 m ρ c (Proc.devRef .tc main_v26) = combineGrid (m ((c.tc : Thread nD τ).loc main_arg0)) (nhGrid (m ((c.tc : Thread nD τ).loc main_arg1)) (m ((c.tc : Thread nD τ).loc main_arg2)) (m ((c.tc : Thread nD τ).loc main_arg6)) (m ((c.tc : Thread nD τ).loc main_arg7))) (wT (m ((c.tc : Thread nD τ).loc main_arg4))) (fun j => (m ((c.tc : Thread nD τ).loc main_arg5)) (ix1 j)) := by
  refine (W2_arr m ρ c 4).trans ?_
  refine (final0 (V1 m ρ) c).trans ?_
  have e0 : V1 m ρ c main_arg0 = (m ((c.tc : Thread nD τ).loc main_arg0)) := W1_arg0 m ρ c
  have e1 : V1 m ρ c main_v11 = (nhGrid (m ((c.tc : Thread nD τ).loc main_arg1)) (m ((c.tc : Thread nD τ).loc main_arg2)) (m ((c.tc : Thread nD τ).loc main_arg6)) (m ((c.tc : Thread nD τ).loc main_arg7))) := W1_v11 m ρ c
  have e2 : V1 m ρ c main_v24 = wT (m ((c.tc : Thread nD τ).loc main_arg4)) := W1_v24 m ρ c
  have e3 : (fun j : Fin 256 => V1 m ρ c main_v25 (ix2 (0 : Fin 1) j)) = fun j => (m ((c.tc : Thread nD τ).loc main_arg5)) (ix1 j) :=
    funext fun j => W1_v25_at m ρ c j
  rw [e0, e1, e2, e3]

/-! ## What the second launch finds: the first wrote only its own output -/

theorem W2_arg1 (c : Dev nD) : W2 m ρ c (Proc.devRef .tc main_arg1) = (m ((c.tc : Thread nD τ).loc main_arg1)) :=
  (W2_of_ne m ρ c main_arg1 (by decide)).trans (W1_arg1 m ρ c)
theorem W2_v23 (c : Dev nD) : W2 m ρ c (Proc.devRef .tc main_v23) = (nhSc (m ((c.tc : Thread nD τ).loc main_arg0)) (m ((c.tc : Thread nD τ).loc main_arg3)) (m ((c.tc : Thread nD τ).loc main_arg8)) (m ((c.tc : Thread nD τ).loc main_arg9))) :=
  (W2_of_ne m ρ c main_v23 (by decide)).trans (W1_v23 m ρ c)
theorem W2_v24 (c : Dev nD) : W2 m ρ c (Proc.devRef .tc main_v24) = wT (m ((c.tc : Thread nD τ).loc main_arg4)) :=
  (W2_arr m ρ c 2).trans (((dat0 (V1 m ρ) c).arrAt_in 2 rfl _).trans ((A_eq0 (V1 m ρ) c 2).trans (W1_v24 m ρ c)))
theorem W2_v25_at (c : Dev nD) (j : Fin 256) :
    W2 m ρ c (Proc.devRef .tc main_v25) (ix2 (0 : Fin 1) j) = (m ((c.tc : Thread nD τ).loc main_arg5)) (ix1 j) := by
  have e : W2 m ρ c (Proc.devRef .tc main_v25) = W1 m ρ c (Proc.devRef .tc main_v25) :=
    (W2_arr m ρ c 3).trans (((dat0 (V1 m ρ) c).arrAt_in 3 rfl _).trans (A_eq0 (V1 m ρ) c 3))
  rw [e]
  exact W1_v25_at m ρ c j

/-! ## Across the second launch -/

theorem out_sc (c : Dev nD) : W3 m ρ c (Proc.devRef .tc main_v27) = combineSc (m ((c.tc : Thread nD τ).loc main_arg1)) (nhSc (m ((c.tc : Thread nD τ).loc main_arg0)) (m ((c.tc : Thread nD τ).loc main_arg3)) (m ((c.tc : Thread nD τ).loc main_arg8)) (m ((c.tc : Thread nD τ).loc main_arg9))) (wT (m ((c.tc : Thread nD τ).loc main_arg4))) (fun j => (m ((c.tc : Thread nD τ).loc main_arg5)) (ix1 j)) := by
  refine (W3_arr m ρ c 4).trans ?_
  refine (final1 (V2 m ρ) c).trans ?_
  have e0 : V2 m ρ c main_arg1 = (m ((c.tc : Thread nD τ).loc main_arg1)) := W2_arg1 m ρ c
  have e1 : V2 m ρ c main_v23 = (nhSc (m ((c.tc : Thread nD τ).loc main_arg0)) (m ((c.tc : Thread nD τ).loc main_arg3)) (m ((c.tc : Thread nD τ).loc main_arg8)) (m ((c.tc : Thread nD τ).loc main_arg9))) := W2_v23 m ρ c
  have e2 : V2 m ρ c main_v24 = wT (m ((c.tc : Thread nD τ).loc main_arg4)) := W2_v24 m ρ c
  have e3 : (fun j : Fin 256 => V2 m ρ c main_v25 (ix2 (0 : Fin 1) j)) = fun j => (m ((c.tc : Thread nD τ).loc main_arg5)) (ix1 j) :=
    funext fun j => W2_v25_at m ρ c j
  rw [e0, e1, e2, e3]

/-- The first launch's output is not an array of the second launch: it is still there. -/
theorem out_grid' (c : Dev nD) : W3 m ρ c (Proc.devRef .tc main_v26) = combineGrid (m ((c.tc : Thread nD τ).loc main_arg0)) (nhGrid (m ((c.tc : Thread nD τ).loc main_arg1)) (m ((c.tc : Thread nD τ).loc main_arg2)) (m ((c.tc : Thread nD τ).loc main_arg6)) (m ((c.tc : Thread nD τ).loc main_arg7))) (wT (m ((c.tc : Thread nD τ).loc main_arg4))) (fun j => (m ((c.tc : Thread nD τ).loc main_arg5)) (ix1 j)) :=
  (W3_of_ne m ρ c main_v26 (by decide)).trans (out_grid m ρ c)

theorem W3_arg10 (c : Dev nD) : W3 m ρ c (Proc.devRef .tc main_arg10) = (m ((c.tc : Thread nD τ).loc main_arg10)) :=
  (W3_of_ne m ρ c main_arg10 (by decide)).trans ((W2_of_ne m ρ c main_arg10 (by decide)).trans (W1_arg10 m ρ c))
theorem W3_arg11 (c : Dev nD) : W3 m ρ c (Proc.devRef .tc main_arg11) = (m ((c.tc : Thread nD τ).loc main_arg11)) :=
  (W3_of_ne m ρ c main_arg11 (by decide)).trans ((W2_of_ne m ρ c main_arg11 (by decide)).trans (W1_arg11 m ρ c))

/-! ## The two results -/

/-- The first result: the query rows of the second launch's output. -/
theorem res_sc (c : Dev nD) : W4 m ρ c (Proc.devRef .tc main_v34) = tailSc (combineSc (m ((c.tc : Thread nD τ).loc main_arg1)) (nhSc (m ((c.tc : Thread nD τ).loc main_arg0)) (m ((c.tc : Thread nD τ).loc main_arg3)) (m ((c.tc : Thread nD τ).loc main_arg8)) (m ((c.tc : Thread nD τ).loc main_arg9))) (wT (m ((c.tc : Thread nD τ).loc main_arg4))) (fun j => (m ((c.tc : Thread nD τ).loc main_arg5)) (ix1 j))) (m ((c.tc : Thread nD τ).loc main_arg10)) := by
  show StableHlo.after hostOps2 (W3 m ρ c) (Proc.devRef .tc main_v34) = _
  simp only [hostOps2, List.flatten_cons, List.flatten_nil, List.append_nil, List.cons_append, List.nil_append]
  after_results
  rw [out_sc, W3_arg10]
  rfl

/-- The second result: the query rows of the first launch's output. -/
theorem res_grid (c : Dev nD) : W4 m ρ c (Proc.devRef .tc main_v41) = tailGrid (combineGrid (m ((c.tc : Thread nD τ).loc main_arg0)) (nhGrid (m ((c.tc : Thread nD τ).loc main_arg1)) (m ((c.tc : Thread nD τ).loc main_arg2)) (m ((c.tc : Thread nD τ).loc main_arg6)) (m ((c.tc : Thread nD τ).loc main_arg7))) (wT (m ((c.tc : Thread nD τ).loc main_arg4))) (fun j => (m ((c.tc : Thread nD τ).loc main_arg5)) (ix1 j))) (m ((c.tc : Thread nD τ).loc main_arg11)) := by
  show StableHlo.after hostOps2 (W3 m ρ c) (Proc.devRef .tc main_v41) = _
  simp only [hostOps2, List.flatten_cons, List.flatten_nil, List.append_nil, List.cons_append, List.nil_append]
  after_results_simp
  rw [out_grid', W3_arg11]
  rfl

end Cert.KernelIdeal.HostSide

end
-- ==== Proof.RefCombine.lean ====
/-
  The reference's dense stage is the specification.

  The reference computes, on whole arrays, `leaky ((v + nh) · W1ᵀ + b) + leaky ((v ⊙ nh) · W1ᵀ + b)` for each node set.
  Read at an entry `(p, q)` one operation at a time: the host product is the sum over the contracted axis of row `p`
  of the left operand against column `q` of the transposed weights; the bias, broadcast first to one row and then over
  all rows, is its entry `q`; the compare-and-select is the rectifier. So the whole array is `combineSc` /
  `combineGrid` of the node features, the aggregated array (kept as the scatter-add stage, never opened), the
  transposed weights (kept as the transpose stage) and the bias vector.
-/
import proofs.«141444_j57878979281442_1_alg».proof.Proof.Gen.ReferenceIdeal.Read
import proofs.«141444_j57878979281442_1_alg».proof.Proof.Spec
import Idealize.ShloMosaic.Lib.ValueIdx

noncomputable section

namespace Cert.ReferenceIdeal.RefCombine

open Cert.ReferenceIdeal Cert.ReferenceIdeal.Gen Cert.ReferenceIdeal.Read Cert.Combine
open Idealize.ShloMosaic Idealize.ShloMosaic.ValueIdx

/-! ## The 20000-row node set -/

theorem lidx49 (p : Fin 20000) (q k : Fin 256) : lidx_main_v49 (ix2 p q) k = ix2 p k :=
  funext fun a => Fin.ext (by match a with | ⟨0, _⟩ => rfl | ⟨1, _⟩ => rfl)
theorem ridx49 (p : Fin 20000) (q k : Fin 256) : ridx_main_v49 (ix2 p q) k = ix2 k q :=
  funext fun a => Fin.ext (by match a with | ⟨0, _⟩ => rfl | ⟨1, _⟩ => rfl)
theorem bidx51 (p : Fin 20000) (q : Fin 256) : idx_main_v50 (idx_main_v51 (ix2 p q)) = ix1 q :=
  funext fun a => Fin.ext (by match a with | ⟨0, _⟩ => rfl)
theorem lidx60 (p : Fin 20000) (q k : Fin 256) : lidx_main_v60 (ix2 p q) k = ix2 p k :=
  funext fun a => Fin.ext (by match a with | ⟨0, _⟩ => rfl | ⟨1, _⟩ => rfl)
theorem ridx60 (p : Fin 20000) (q k : Fin 256) : ridx_main_v60 (ix2 p q) k = ix2 k q :=
  funext fun a => Fin.ext (by match a with | ⟨0, _⟩ => rfl | ⟨1, _⟩ => rfl)
theorem bidx62 (p : Fin 20000) (q : Fin 256) : idx_main_v61 (idx_main_v62 (ix2 p q)) = ix1 q :=
  funext fun a => Fin.ext (by match a with | ⟨0, _⟩ => rfl)

/-- The affine image of the SUM row at `(p, q)`. -/
theorem lin_sum_sc (x0 : (⟨S100000x256, .f32⟩ : BufTy).Contents (Elt Ideal)) (x1 : (⟨S20000x256, .f32⟩ : BufTy).Contents (Elt Ideal)) (x3 : (⟨S300000x1, .f32⟩ : BufTy).Contents (Elt Ideal)) (x4 : (⟨S256x256, .f32⟩ : BufTy).Contents (Elt Ideal)) (x5 : (⟨S256, .f32⟩ : BufTy).Contents (Elt Ideal)) (x8 x9 : (⟨S300000, .i32⟩ : BufTy).Contents (Elt Ideal)) (p : Fin 20000) (q : Fin 256) :
    val_main_v52 (F := Ideal) x0 x1 x3 x4 x5 x8 x9 (ix2 p q)
      = lin (fun k => x1 (ix2 p k) + val_main_v23 (F := Ideal) x0 x3 x8 x9 (ix2 p k))
          (fun k j => val_main_v48 (F := Ideal) x4 (ix2 k j)) (fun j => x5 (ix1 j)) q := by
  rw [val_main_v52_apply, val_main_v49_apply, val_main_v51_apply, val_main_v50_apply]
  simp only [lidx49, ridx49, bidx51, val_main_v47_apply]
  rfl

/-- The affine image of the PRODUCT row at `(p, q)` (its weights are the same transposed matrix). -/
theorem lin_prod_sc (x0 : (⟨S100000x256, .f32⟩ : BufTy).Contents (Elt Ideal)) (x1 : (⟨S20000x256, .f32⟩ : BufTy).Contents (Elt Ideal)) (x3 : (⟨S300000x1, .f32⟩ : BufTy).Contents (Elt Ideal)) (x4 : (⟨S256x256, .f32⟩ : BufTy).Contents (Elt Ideal)) (x5 : (⟨S256, .f32⟩ : BufTy).Contents (Elt Ideal)) (x8 x9 : (⟨S300000, .i32⟩ : BufTy).Contents (Elt Ideal)) (p : Fin 20000) (q : Fin 256) :
    val_main_v63 (F := Ideal) x0 x1 x3 x4 x5 x8 x9 (ix2 p q)
      = lin (fun k => x1 (ix2 p k) * val_main_v23 (F := Ideal) x0 x3 x8 x9 (ix2 p k))
          (fun k j => val_main_v48 (F := Ideal) x4 (ix2 k j)) (fun j => x5 (ix1 j)) q := by
  have e59 : val_main_v59 (F := Ideal) x4 = val_main_v48 (F := Ideal) x4 := rfl
  rw [val_main_v63_apply, val_main_v60_apply, val_main_v62_apply, val_main_v61_apply, e59]
  simp only [lidx60, ridx60, bidx62, val_main_v58_apply]
  rfl

/-- The rectified SUM branch at an entry. -/
theorem leaky_sum_sc (x0 : (⟨S100000x256, .f32⟩ : BufTy).Contents (Elt Ideal)) (x1 : (⟨S20000x256, .f32⟩ : BufTy).Contents (Elt Ideal)) (x3 : (⟨S300000x1, .f32⟩ : BufTy).Contents (Elt Ideal)) (x4 : (⟨S256x256, .f32⟩ : BufTy).Contents (Elt Ideal)) (x5 : (⟨S256, .f32⟩ : BufTy).Contents (Elt Ideal)) (x8 x9 : (⟨S300000, .i32⟩ : BufTy).Contents (Elt Ideal)) (i : S20000x256.Idx) :
    val_main_v57 (F := Ideal) x0 x1 x3 x4 x5 x8 x9 i = leaky (val_main_v52 (F := Ideal) x0 x1 x3 x4 x5 x8 x9 i) := by
  rw [val_main_v57_apply, val_main_v54_apply, val_main_v56_apply, val_main_v53_apply, val_main_v55_apply,
    val_main_cst_8_apply, val_main_cst_9_apply]
  rfl

/-- The rectified PRODUCT branch at an entry. -/
theorem leaky_prod_sc (x0 : (⟨S100000x256, .f32⟩ : BufTy).Contents (Elt Ideal)) (x1 : (⟨S20000x256, .f32⟩ : BufTy).Contents (Elt Ideal)) (x3 : (⟨S300000x1, .f32⟩ : BufTy).Contents (Elt Ideal)) (x4 : (⟨S256x256, .f32⟩ : BufTy).Contents (Elt Ideal)) (x5 : (⟨S256, .f32⟩ : BufTy).Contents (Elt Ideal)) (x8 x9 : (⟨S300000, .i32⟩ : BufTy).Contents (Elt Ideal)) (i : S20000x256.Idx) :
    val_main_v68 (F := Ideal) x0 x1 x3 x4 x5 x8 x9 i = leaky (val_main_v63 (F := Ideal) x0 x1 x3 x4 x5 x8 x9 i) := by
  rw [val_main_v68_apply, val_main_v65_apply, val_main_v67_apply, val_main_v64_apply, val_main_v66_apply,
    val_main_cst_10_apply, val_main_cst_11_apply]
  rfl

/-- The reference's dense stage on the 20000-row node set is the specification's. -/
theorem ref_sc (x0 : (⟨S100000x256, .f32⟩ : BufTy).Contents (Elt Ideal)) (x1 : (⟨S20000x256, .f32⟩ : BufTy).Contents (Elt Ideal)) (x3 : (⟨S300000x1, .f32⟩ : BufTy).Contents (Elt Ideal)) (x4 : (⟨S256x256, .f32⟩ : BufTy).Contents (Elt Ideal)) (x5 : (⟨S256, .f32⟩ : BufTy).Contents (Elt Ideal)) (x8 x9 : (⟨S300000, .i32⟩ : BufTy).Contents (Elt Ideal)) :
    val_main_v69 (F := Ideal) x0 x1 x3 x4 x5 x8 x9
      = combineSc x1 (val_main_v23 (F := Ideal) x0 x3 x8 x9) (val_main_v48 (F := Ideal) x4) (fun j => x5 (ix1 j)) := by
  funext i
  obtain ⟨p, q, rfl⟩ : ∃ (p : Fin 20000) (q : Fin 256), i = ix2 p q := ⟨i 0, i 1, eq_ix2 i⟩
  rw [val_main_v69_apply, leaky_sum_sc, leaky_prod_sc, lin_sum_sc, lin_prod_sc]
  rfl

/-! ## The 100000-row node set -/

theorem lidx26 (p : Fin 100000) (q k : Fin 256) : lidx_main_v26 (ix2 p q) k = ix2 p k :=
  funext fun a => Fin.ext (by match a with | ⟨0, _⟩ => rfl | ⟨1, _⟩ => rfl)
theorem ridx26 (p : Fin 100000) (q k : Fin 256) : ridx_main_v26 (ix2 p q) k = ix2 k q :=
  funext fun a => Fin.ext (by match a with | ⟨0, _⟩ => rfl | ⟨1, _⟩ => rfl)
theorem bidx28 (p : Fin 100000) (q : Fin 256) : idx_main_v27 (idx_main_v28 (ix2 p q)) = ix1 q :=
  funext fun a => Fin.ext (by match a with | ⟨0, _⟩ => rfl)
theorem lidx37 (p : Fin 100000) (q k : Fin 256) : lidx_main_v37 (ix2 p q) k = ix2 p k :=
  funext fun a => Fin.ext (by match a with | ⟨0, _⟩ => rfl | ⟨1, _⟩ => rfl)
theorem ridx37 (p : Fin 100000) (q k : Fin 256) : ridx_main_v37 (ix2 p q) k = ix2 k q :=
  funext fun a => Fin.ext (by match a with | ⟨0, _⟩ => rfl | ⟨1, _⟩ => rfl)
theorem bidx39 (p : Fin 100000) (q : Fin 256) : idx_main_v38 (idx_main_v39 (ix2 p q)) = ix1 q :=
  funext fun a => Fin.ext (by match a with | ⟨0, _⟩ => rfl)

/-- The affine image of the SUM row at `(p, q)`. -/
theorem lin_sum_grid (x0 : (⟨S100000x256, .f32⟩ : BufTy).Contents (Elt Ideal)) (x1 : (⟨S20000x256, .f32⟩ : BufTy).Contents (Elt Ideal)) (x2 : (⟨S300000x1, .f32⟩ : BufTy).Contents (Elt Ideal)) (x4 : (⟨S256x256, .f32⟩ : BufTy).Contents (Elt Ideal)) (x5 : (⟨S256, .f32⟩ : BufTy).Contents (Elt Ideal)) (x6 x7 : (⟨S300000, .i32⟩ : BufTy).Contents (Elt Ideal)) (p : Fin 100000) (q : Fin 256) :
    val_main_v29 (F := Ideal) x0 x1 x2 x4 x5 x6 x7 (ix2 p q)
      = lin (fun k => x0 (ix2 p k) + val_main_v11 (F := Ideal) x1 x2 x6 x7 (ix2 p k))
          (fun k j => val_main_v25 (F := Ideal) x4 (ix2 k j)) (fun j => x5 (ix1 j)) q := by
  rw [val_main_v29_apply, val_main_v26_apply, val_main_v28_apply, val_main_v27_apply]
  simp only [lidx26, ridx26, bidx28, val_main_v24_apply]
  rfl

/-- The affine image of the PRODUCT row at `(p, q)` (its weights are the same transposed matrix). -/
theorem lin_prod_grid (x0 : (⟨S100000x256, .f32⟩ : BufTy).Contents (Elt Ideal)) (x1 : (⟨S20000x256, .f32⟩ : BufTy).Contents (Elt Ideal)) (x2 : (⟨S300000x1, .f32⟩ : BufTy).Contents (Elt Ideal)) (x4 : (⟨S256x256, .f32⟩ : BufTy).Contents (Elt Ideal)) (x5 : (⟨S256, .f32⟩ : BufTy).Contents (Elt Ideal)) (x6 x7 : (⟨S300000, .i32⟩ : BufTy).Contents (Elt Ideal)) (p : Fin 100000) (q : Fin 256) :
    val_main_v40 (F := Ideal) x0 x1 x2 x4 x5 x6 x7 (ix2 p q)
      = lin (fun k => x0 (ix2 p k) * val_main_v11 (F := Ideal) x1 x2 x6 x7 (ix2 p k))
          (fun k j => val_main_v25 (F := Ideal) x4 (ix2 k j)) (fun j => x5 (ix1 j)) q := by
  have e36 : val_main_v36 (F := Ideal) x4 = val_main_v25 (F := Ideal) x4 := rfl
  rw [val_main_v40_apply, val_main_v37_apply, val_main_v39_apply, val_main_v38_apply, e36]
  simp only [lidx37, ridx37, bidx39, val_main_v35_apply]
  rfl

/-- The rectified SUM branch at an entry. -/
theorem leaky_sum_grid (x0 : (⟨S100000x256, .f32⟩ : BufTy).Contents (Elt Ideal)) (x1 : (⟨S20000x256, .f32⟩ : BufTy).Contents (Elt Ideal)) (x2 : (⟨S300000x1, .f32⟩ : BufTy).Contents (Elt Ideal)) (x4 : (⟨S256x256, .f32⟩ : BufTy).Contents (Elt Ideal)) (x5 : (⟨S256, .f32⟩ : BufTy).Contents (Elt Ideal)) (x6 x7 : (⟨S300000, .i32⟩ : BufTy).Contents (Elt Ideal)) (i : S100000x256.Idx) :
    val_main_v34 (F := Ideal) x0 x1 x2 x4 x5 x6 x7 i = leaky (val_main_v29 (F := Ideal) x0 x1 x2 x4 x5 x6 x7 i) := by
  rw [val_main_v34_apply, val_main_v31_apply, val_main_v33_apply, val_main_v30_apply, val_main_v32_apply,
    val_main_cst_4_apply, val_main_cst_5_apply]
  rfl

/-- The rectified PRODUCT branch at an entry. -/
theorem leaky_prod_grid (x0 : (⟨S100000x256, .f32⟩ : BufTy).Contents (Elt Ideal)) (x1 : (⟨S20000x256, .f32⟩ : BufTy).Contents (Elt Ideal)) (x2 : (⟨S300000x1, .f32⟩ : BufTy).Contents (Elt Ideal)) (x4 : (⟨S256x256, .f32⟩ : BufTy).Contents (Elt Ideal)) (x5 : (⟨S256, .f32⟩ : BufTy).Contents (Elt Ideal)) (x6 x7 : (⟨S300000, .i32⟩ : BufTy).Contents (Elt Ideal)) (i : S100000x256.Idx) :
    val_main_v45 (F := Ideal) x0 x1 x2 x4 x5 x6 x7 i = leaky (val_main_v40 (F := Ideal) x0 x1 x2 x4 x5 x6 x7 i) := by
  rw [val_main_v45_apply, val_main_v42_apply, val_main_v44_apply, val_main_v41_apply, val_main_v43_apply,
    val_main_cst_6_apply, val_main_cst_7_apply]
  rfl

/-- The reference's dense stage on the 100000-row node set is the specification's. -/
theorem ref_grid (x0 : (⟨S100000x256, .f32⟩ : BufTy).Contents (Elt Ideal)) (x1 : (⟨S20000x256, .f32⟩ : BufTy).Contents (Elt Ideal)) (x2 : (⟨S300000x1, .f32⟩ : BufTy).Contents (Elt Ideal)) (x4 : (⟨S256x256, .f32⟩ : BufTy).Contents (Elt Ideal)) (x5 : (⟨S256, .f32⟩ : BufTy).Contents (Elt Ideal)) (x6 x7 : (⟨S300000, .i32⟩ : BufTy).Contents (Elt Ideal)) :
    val_main_v46 (F := Ideal) x0 x1 x2 x4 x5 x6 x7
      = combineGrid x0 (val_main_v11 (F := Ideal) x1 x2 x6 x7) (val_main_v25 (F := Ideal) x4) (fun j => x5 (ix1 j)) := by
  funext i
  obtain ⟨p, q, rfl⟩ : ∃ (p : Fin 100000) (q : Fin 256), i = ix2 p q := ⟨i 0, i 1, eq_ix2 i⟩
  rw [val_main_v46_apply, leaky_sum_grid, leaky_prod_grid, lin_sum_grid, lin_prod_grid]
  rfl

end Cert.ReferenceIdeal.RefCombine

end
-- ==== Proof.Bridge.lean ====
/-
  The two programs meet.

  Outside the dense stage both programs apply the same host operations: the two edge aggregations, the transpose of
  the weights, and the final gathers of the query rows with their index wrap. Those are literally the same functions
  of the argument arrays in the two printed programs, so each pair is equal by unfolding names; and the dense stage
  is the specification on both sides. Hence each result of the reference, as a function of the arguments, IS the
  corresponding result of the kernel program.
-/
import proofs.«141444_j57878979281442_1_alg».proof.Proof.KernelHost
import proofs.«141444_j57878979281442_1_alg».proof.Proof.RefCombine

noncomputable section

namespace Cert.Bridge

open Cert.Combine Cert.KernelIdeal.HostSide Cert.ReferenceIdeal.Read Cert.ReferenceIdeal.RefCombine
open Idealize.ShloMosaic Idealize.ShloMosaic.ValueIdx

/-! ## The shared host chains, pair by pair -/

theorem nh_sc_eq (a0 : (⟨Cert.KernelIdeal.S100000x256, .f32⟩ : BufTy).Contents (Elt Ideal)) (a3 : (⟨Cert.KernelIdeal.S300000x1, .f32⟩ : BufTy).Contents (Elt Ideal)) (a8 a9 : (⟨Cert.KernelIdeal.S300000, .i32⟩ : BufTy).Contents (Elt Ideal)) :
    val_main_v23 (F := Ideal) a0 a3 a8 a9 = nhSc a0 a3 a8 a9 := rfl

theorem nh_grid_eq (a1 : (⟨Cert.KernelIdeal.S20000x256, .f32⟩ : BufTy).Contents (Elt Ideal)) (a2 : (⟨Cert.KernelIdeal.S300000x1, .f32⟩ : BufTy).Contents (Elt Ideal)) (a6 a7 : (⟨Cert.KernelIdeal.S300000, .i32⟩ : BufTy).Contents (Elt Ideal)) :
    val_main_v11 (F := Ideal) a1 a2 a6 a7 = nhGrid a1 a2 a6 a7 := rfl

theorem wT_sc_eq (a4 : (⟨Cert.KernelIdeal.S256x256, .f32⟩ : BufTy).Contents (Elt Ideal)) : val_main_v48 (F := Ideal) a4 = wT a4 := rfl

theorem wT_grid_eq (a4 : (⟨Cert.KernelIdeal.S256x256, .f32⟩ : BufTy).Contents (Elt Ideal)) : val_main_v25 (F := Ideal) a4 = wT a4 := rfl

theorem tail_sc_eq (X : (⟨Cert.KernelIdeal.S20000x256, .f32⟩ : BufTy).Contents (Elt Ideal)) (a10 : (⟨Cert.KernelIdeal.S4096, .i32⟩ : BufTy).Contents (Elt Ideal)) :
    Host.gather Cert.ReferenceIdeal.gather_S20000x256_S4096x1_S4096x256_1_0_n_n_0_1_1256 X (val_main_v75 (F := Ideal) a10) = tailSc X a10 := rfl

theorem tail_grid_eq (X : (⟨Cert.KernelIdeal.S100000x256, .f32⟩ : BufTy).Contents (Elt Ideal)) (a11 : (⟨Cert.KernelIdeal.S4096, .i32⟩ : BufTy).Contents (Elt Ideal)) :
    Host.gather Cert.ReferenceIdeal.gather_S100000x256_S4096x1_S4096x256_1_0_n_n_0_1_1256 X (val_main_v82 (F := Ideal) a11) = tailGrid X a11 := rfl

/-! ## The results -/

/-- The reference's first result is the kernel program's: the query rows of the dense stage on the 20000-row set. -/
theorem res_sc_eq (a0 : (⟨Cert.KernelIdeal.S100000x256, .f32⟩ : BufTy).Contents (Elt Ideal)) (a1 : (⟨Cert.KernelIdeal.S20000x256, .f32⟩ : BufTy).Contents (Elt Ideal)) (a3 : (⟨Cert.KernelIdeal.S300000x1, .f32⟩ : BufTy).Contents (Elt Ideal))
    (a4 : (⟨Cert.KernelIdeal.S256x256, .f32⟩ : BufTy).Contents (Elt Ideal)) (a5 : (⟨Cert.KernelIdeal.S256, .f32⟩ : BufTy).Contents (Elt Ideal)) (a8 a9 : (⟨Cert.KernelIdeal.S300000, .i32⟩ : BufTy).Contents (Elt Ideal)) (a10 : (⟨Cert.KernelIdeal.S4096, .i32⟩ : BufTy).Contents (Elt Ideal)) :
    val_main_v76 (F := Ideal) a0 a1 a3 a4 a5 a8 a9 a10
      = tailSc (combineSc a1 (nhSc a0 a3 a8 a9) (wT a4) (fun j => a5 (ix1 j))) a10 := by
  unfold val_main_v76
  rw [ref_sc, nh_sc_eq, wT_sc_eq, tail_sc_eq]

/-- The reference's second result is the kernel program's: the query rows of the dense stage on the 100000-row set. -/
theorem res_grid_eq (a0 : (⟨Cert.KernelIdeal.S100000x256, .f32⟩ : BufTy).Contents (Elt Ideal)) (a1 : (⟨Cert.KernelIdeal.S20000x256, .f32⟩ : BufTy).Contents (Elt Ideal)) (a2 : (⟨Cert.KernelIdeal.S300000x1, .f32⟩ : BufTy).Contents (Elt Ideal))
    (a4 : (⟨Cert.KernelIdeal.S256x256, .f32⟩ : BufTy).Contents (Elt Ideal)) (a5 : (⟨Cert.KernelIdeal.S256, .f32⟩ : BufTy).Contents (Elt Ideal)) (a6 a7 : (⟨Cert.KernelIdeal.S300000, .i32⟩ : BufTy).Contents (Elt Ideal)) (a11 : (⟨Cert.KernelIdeal.S4096, .i32⟩ : BufTy).Contents (Elt Ideal)) :
    val_main_v83 (F := Ideal) a0 a1 a2 a4 a5 a6 a7 a11
      = tailGrid (combineGrid a0 (nhGrid a1 a2 a6 a7) (wT a4) (fun j => a5 (ix1 j))) a11 := by
  unfold val_main_v83
  rw [ref_grid, nh_grid_eq, wT_grid_eq, tail_grid_eq]

end Cert.Bridge

end
-- ==== Proof.lean ====
/-
  Message passing over two node sets, then a dense "dual linear combine": the kernel program against its reference.

  Both programs first aggregate, per edge type, source rows scaled by edge weights into destination rows (a gather, a
  product, a scatter-add into zeros), then apply to every node of each set

      out = leaky ((v + nh) · W1ᵀ + b) + leaky ((v ⊙ nh) · W1ᵀ + b),

  and finally gather 4096 query rows of each output. The kernel program computes the dense stage in two launches of
  one kernel, 2000 rows at a time, with the operands rounded to bfloat16 before each matrix product; the reference
  computes it with whole-array host operations.

  Over the extended reals a change of float format is the identity and a matrix product into a zero accumulator is
  the plain sum over the contracted axis, so at an entry `(r, j)` both programs compute the same expression of row `r`
  of `v` and `nh`, column `j` of `W1ᵀ` and entry `j` of `b` — the sums are over the same index in the same order, so no
  law of the extended reals beyond reading the operations at an index is used and the inputs' finiteness is never
  needed. The kernel's row blocks tile each output, so each launch leaves the whole-array dense stage in its output
  array. The aggregations, the transpose of the weights and the final gathers are the same host operations in both
  programs and are carried as named functions, never opened.

  The three frames: the two kernel programs' are the generated frame certificates; the reference's is its generated
  run with the results dropped. The idealization rewrote nothing, so `preserves` is trivial.
-/
import proofs.«141444_j57878979281442_1_alg».proof.Defs
import proofs.«141444_j57878979281442_1_alg».proof.Proof.Gen.Kernel
import proofs.«141444_j57878979281442_1_alg».proof.Proof.Gen.Kernel.Skeleton
import proofs.«141444_j57878979281442_1_alg».proof.Proof.Gen.Kernel.Launch
import proofs.«141444_j57878979281442_1_alg».proof.Proof.Gen.Kernel.Points
import proofs.«141444_j57878979281442_1_alg».proof.Proof.Gen.Kernel.Frame
import proofs.«141444_j57878979281442_1_alg».proof.Proof.Gen.KernelIdeal
import proofs.«141444_j57878979281442_1_alg».proof.Proof.Gen.KernelIdeal.Skeleton
import proofs.«141444_j57878979281442_1_alg».proof.Proof.Gen.KernelIdeal.Launch
import proofs.«141444_j57878979281442_1_alg».proof.Proof.Gen.KernelIdeal.Points
import proofs.«141444_j57878979281442_1_alg».proof.Proof.Gen.KernelIdeal.Frame
import proofs.«141444_j57878979281442_1_alg».proof.Proof.Gen.ReferenceIdeal
import proofs.«141444_j57878979281442_1_alg».proof.Proof.Gen.ReferenceIdeal.Run
import proofs.«141444_j57878979281442_1_alg».proof.Proof.Gen.ReferenceIdeal.Read
import proofs.«141444_j57878979281442_1_alg».proof.Proof.Gen.Pre_finite_inputs
import Idealize.ShloMosaic.Adequacy
import Idealize.ShloMosaic.Init
import proofs.«141444_j57878979281442_1_alg».proof.Proof.KernelRun
import proofs.«141444_j57878979281442_1_alg».proof.Proof.KernelHost
import proofs.«141444_j57878979281442_1_alg».proof.Proof.RefCombine
import proofs.«141444_j57878979281442_1_alg».proof.Proof.Bridge

noncomputable section

namespace Cert.Proof

open Idealize.ShloMosaic Idealize.ShloMosaic.ValueIdx Idealize.SL.Sem
open Cert.Combine Cert.KernelIdeal.HostSide

/-- From memories agreeing on the arguments, both idealized programs run, and their results are the same functions of
    the arguments: the query rows of the dense stage of each node set. -/
theorem algebraic : Cert.algebraic_KernelIdeal_ReferenceIdeal := by
  intro m ρ m' ρ' _ hagree
  refine ⟨fun c => tailSc (combineSc (m ((c.tc : Thread Cert.KernelIdeal.nD Cert.KernelIdeal.τ).loc Cert.KernelIdeal.main_arg1)) (nhSc (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (wT (m ((c.tc : Thread Cert.KernelIdeal.nD Cert.KernelIdeal.τ).loc Cert.KernelIdeal.main_arg4))) (fun j => (m ((c.tc : Thread Cert.KernelIdeal.nD Cert.KernelIdeal.τ).loc Cert.KernelIdeal.main_arg5)) (ix1 j))) (m ((c.tc : Thread Cert.KernelIdeal.nD Cert.KernelIdeal.τ).loc Cert.KernelIdeal.main_arg10)),
    fun c => tailGrid (combineGrid (m ((c.tc : Thread Cert.KernelIdeal.nD Cert.KernelIdeal.τ).loc Cert.KernelIdeal.main_arg0)) (nhGrid (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (wT (m ((c.tc : Thread Cert.KernelIdeal.nD Cert.KernelIdeal.τ).loc Cert.KernelIdeal.main_arg4))) (fun j => (m ((c.tc : Thread Cert.KernelIdeal.nD Cert.KernelIdeal.τ).loc Cert.KernelIdeal.main_arg5)) (ix1 j))) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (res_sc m ρ c), (h c).2.1.trans (res_grid m ρ c), (h c).2.2⟩)
      (Cert.KernelIdeal.ValuedRun.run_valued (F := Ideal) m ρ)
  · refine (θ_run Cert.ReferenceIdeal.defs _ _).mono (fun r h c => ?_)
      (Cert.ReferenceIdeal.Value.run (F := Ideal) m' ρ')
    obtain ⟨g0, g1, g2, g3, g4, g5, g6, g7, g8, g9, g10, g11⟩ := hagree c
    refine ⟨(h c).1.trans ?_, (h c).2.1.trans ?_, (h c).2.2⟩
    · rw [Cert.ReferenceIdeal.Read.val_main_v76_eq, g0, g1, g3, g4, g5, g8, g9, g10]
      exact Cert.Bridge.res_sc_eq _ _ _ _ _ _ _ _
    · rw [Cert.ReferenceIdeal.Read.val_main_v83_eq, g0, g1, g2, g4, g5, g6, g7, g11]
      exact Cert.Bridge.res_grid_eq _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
